-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S26x16384x128 : Shape := ⟨3, ![26, 16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S26x16384x128 : S_.BroadcastsInDim S26x16384x128 (![] : Fin 0 → Fin S26x16384x128.rank)
  reducesTo_S26x16384x128_S_d0_1_2 : S26x16384x128.ReducesTo [0, 1, 2] S_

variable [Facts]

def fn {F : FTy → Type} [FloatOps F] (main_arg0 : FVec F S16384x128 .f32) (main_arg1 : FVec F S26x16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S26x16384x128 .f32 := Host.absf main_arg1
  let main_cst_0 : FVec F S_ .f32 := constant S_ .f32 0x7F800000#32
  let main_v5 : FVec F S26x16384x128 .f32 := broadcastInDim S26x16384x128 ![] bcast_S_S26x16384x128 main_cst_0
  let main_v6 : IVec S26x16384x128 1 := cmpf .olt main_v4 main_v5
  let main_c_1 : IVec S_ 1 := constantI S_ 1 1#1
  let main_v7 : IVec S_ 1 := (fun x v => Host.reduce IntOp.andi x v reducesTo_S26x16384x128_S_d0_1_2 h_S_) main_v6 main_c_1
  let main_v8 : IVec S_ 1 := andi main_v3 main_v7
  main_v8
-- ==== Kernel.lean ====
abbrev S16384x128 : Shape := ⟨2, ![16384, 128]⟩
abbrev S26x16384x128 : Shape := ⟨3, ![26, 16384, 128]⟩
abbrev S16384x506 : Shape := ⟨2, ![16384, 506]⟩
abbrev S1024x128 : Shape := ⟨2, ![1024, 128]⟩
abbrev S26x1024x128 : Shape := ⟨3, ![26, 1024, 128]⟩
abbrev S1024x506 : Shape := ⟨2, ![1024, 506]⟩
abbrev S1x1024x128 : Shape := ⟨3, ![1, 1024, 128]⟩
abbrev S1024 : Shape := ⟨1, ![1024]⟩
abbrev S1024x1 : Shape := ⟨2, ![1024, 1]⟩
abbrev S1024x378 : Shape := ⟨2, ![1024, 378]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S26x16384x128, .f32⟩
  | .hbm, ⟨2, _⟩ => ⟨S16384x506, .f32⟩
  | .local _ .vmem, ⟨0, _⟩ => ⟨S1024x128, .f32⟩
  | .local _ .vmem, ⟨1, _⟩ => ⟨S1024x128, .f32⟩
  | .local _ .vmem, ⟨2, _⟩ => ⟨S26x1024x128, .f32⟩
  | .local _ .vmem, ⟨3, _⟩ => ⟨S26x1024x128, .f32⟩
  | .local _ .vmem, ⟨4, _⟩ => ⟨S1024x506, .f32⟩
  | .local _ .vmem, ⟨5, _⟩ => ⟨S1024x506, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S26x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x506 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x128_S1024x128_0_0 : ∀ a, (![0, 0] : Fin 2 → Nat) a + S1024x128.size a ≤ S1024x128.size a
  h_S1024x128 : 0 < S1024x128.numel
  inb_S26x1024x128_S1x1024x128_0_0_0 : ∀ a, (![0, 0, 0] : Fin 3 → Nat) a + S1x1024x128.size a ≤ S26x1024x128.size a
  h_S1x1024x128 : 0 < S1x1024x128.numel
  shapeCasts_S1x1024x128_S1024x128 : S1x1024x128.ShapeCasts S1024x128
  inb_S26x1024x128_S1x1024x128_1_0_0 : ∀ a, (![1, 0, 0] : Fin 3 → Nat) a + S1x1024x128.size a ≤ S26x1024x128.size a
  inb_S26x1024x128_S1x1024x128_2_0_0 : ∀ a, (![2, 0, 0] : Fin 3 → Nat) a + S1x1024x128.size a ≤ S26x1024x128.size a
  inb_S26x1024x128_S1x1024x128_3_0_0 : ∀ a, (![3, 0, 0] : Fin 3 → Nat) a + S1x1024x128.size a ≤ S26x1024x128.size a
  inb_S26x1024x128_S1x1024x128_4_0_0 : ∀ a, (![4, 0, 0] : Fin 3 → Nat) a + S1x1024x128.size a ≤ S26x1024x128.size a
  inb_S26x1024x128_S1x1024x128_5_0_0 : ∀ a, (![5, 0, 0] : Fin 3 → Nat) a + S1x1024x128.size a ≤ S26x1024x128.size a
  inb_S26x1024x128_S1x1024x128_6_0_0 : ∀ a, (![6, 0, 0] : Fin 3 → Nat) a + S1x1024x128.size a ≤ S26x1024x128.size a
  inb_S26x1024x128_S1x1024x128_7_0_0 : ∀ a, (![7, 0, 0] : Fin 3 → Nat) a + S1x1024x128.size a ≤ S26x1024x128.size a
  inb_S26x1024x128_S1x1024x128_8_0_0 : ∀ a, (![8, 0, 0] : Fin 3 → Nat) a + S1x1024x128.size a ≤ S26x1024x128.size a
  inb_S26x1024x128_S1x1024x128_9_0_0 : ∀ a, (![9, 0, 0] : Fin 3 → Nat) a + S1x1024x128.size a ≤ S26x1024x128.size a
  inb_S26x1024x128_S1x1024x128_10_0_0 : ∀ a, (![10, 0, 0] : Fin 3 → Nat) a + S1x1024x128.size a ≤ S26x1024x128.size a
  inb_S26x1024x128_S1x1024x128_11_0_0 : ∀ a, (![11, 0, 0] : Fin 3 → Nat) a + S1x1024x128.size a ≤ S26x1024x128.size a
  inb_S26x1024x128_S1x1024x128_12_0_0 : ∀ a, (![12, 0, 0] : Fin 3 → Nat) a + S1x1024x128.size a ≤ S26x1024x128.size a
  inb_S26x1024x128_S1x1024x128_13_0_0 : ∀ a, (![13, 0, 0] : Fin 3 → Nat) a + S1x1024x128.size a ≤ S26x1024x128.size a
  inb_S26x1024x128_S1x1024x128_14_0_0 : ∀ a, (![14, 0, 0] : Fin 3 → Nat) a + S1x1024x128.size a ≤ S26x1024x128.size a
  inb_S26x1024x128_S1x1024x128_15_0_0 : ∀ a, (![15, 0, 0] : Fin 3 → Nat) a + S1x1024x128.size a ≤ S26x1024x128.size a
  inb_S26x1024x128_S1x1024x128_16_0_0 : ∀ a, (![16, 0, 0] : Fin 3 → Nat) a + S1x1024x128.size a ≤ S26x1024x128.size a
  inb_S26x1024x128_S1x1024x128_17_0_0 : ∀ a, (![17, 0, 0] : Fin 3 → Nat) a + S1x1024x128.size a ≤ S26x1024x128.size a
  inb_S26x1024x128_S1x1024x128_18_0_0 : ∀ a, (![18, 0, 0] : Fin 3 → Nat) a + S1x1024x128.size a ≤ S26x1024x128.size a
  inb_S26x1024x128_S1x1024x128_19_0_0 : ∀ a, (![19, 0, 0] : Fin 3 → Nat) a + S1x1024x128.size a ≤ S26x1024x128.size a
  inb_S26x1024x128_S1x1024x128_20_0_0 : ∀ a, (![20, 0, 0] : Fin 3 → Nat) a + S1x1024x128.size a ≤ S26x1024x128.size a
  inb_S26x1024x128_S1x1024x128_21_0_0 : ∀ a, (![21, 0, 0] : Fin 3 → Nat) a + S1x1024x128.size a ≤ S26x1024x128.size a
  inb_S26x1024x128_S1x1024x128_22_0_0 : ∀ a, (![22, 0, 0] : Fin 3 → Nat) a + S1x1024x128.size a ≤ S26x1024x128.size a
  inb_S26x1024x128_S1x1024x128_23_0_0 : ∀ a, (![23, 0, 0] : Fin 3 → Nat) a + S1x1024x128.size a ≤ S26x1024x128.size a
  inb_S26x1024x128_S1x1024x128_24_0_0 : ∀ a, (![24, 0, 0] : Fin 3 → Nat) a + S1x1024x128.size a ≤ S26x1024x128.size a
  inb_S26x1024x128_S1x1024x128_25_0_0 : ∀ a, (![25, 0, 0] : Fin 3 → Nat) a + S1x1024x128.size a ≤ S26x1024x128.size a
  reduces_S1024x128_S1024 : S1024x128.Reduces [1] S1024
  shapeCasts_S1024_S1024x1 : S1024.ShapeCasts S1024x1
  concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x378_d1 : Shape.Concatenates (S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: []) S1024x378 1
  concatenates_S1024x128_S1024x378_S1024x506_d1 : Shape.Concatenates [S1024x128, S1024x378] S1024x506 1
  inb_S1024x506_S1024x506_0_0 : ∀ a, (![0, 0] : Fin 2 → Nat) a + S1024x506.size a ≤ S1024x506.size a
  h_S1024x506 : 0 < S1024x506.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S26x1024x128.size a ≤ S26x16384x128.size a
  hwx0_1 : ∀ i : grid0.Coords, EltTy.bits .f32 = 32 ∨ (Rect.block (s := S26x16384x128) S26x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x506.size a ≤ S16384x506.size a
  hwx0_2 : ∀ i : grid0.Coords, EltTy.bits .f32 = 32 ∨ (Rect.block (s := S16384x506) S1024x506.size (cc0_transform_2 i) (hinb0_2 i)).WholeWords (EltTy.packing .f32)

variable [Facts₀]

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S26x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x506.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S26x16384x128 : Shape := ⟨3, ![26, 16384, 128]⟩
abbrev S378 : Shape := ⟨1, ![378]⟩
abbrev S1x16384x128 : Shape := ⟨3, ![1, 16384, 128]⟩
abbrev S27x16384x128 : Shape := ⟨3, ![27, 16384, 128]⟩
abbrev S16384x27x128 : Shape := ⟨3, ![16384, 27, 128]⟩
abbrev S16384x27x27 : Shape := ⟨3, ![16384, 27, 27]⟩
abbrev S_ : Shape := ⟨0, ![]⟩
abbrev S378x1 : Shape := ⟨2, ![378, 1]⟩
abbrev S378x2 : Shape := ⟨2, ![378, 2]⟩
abbrev S16384x378 : Shape := ⟨2, ![16384, 378]⟩
abbrev S16384x506 : Shape := ⟨2, ![16384, 506]⟩

abbrev nBuf : Space → Nat
  | .hbm => 23
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S26x16384x128, .f32⟩
  | .hbm, ⟨2, _⟩ => ⟨S378, .i32⟩
  | .hbm, ⟨3, _⟩ => ⟨S378, .i1⟩
  | .hbm, ⟨4, _⟩ => ⟨S378, .i32⟩
  | .hbm, ⟨5, _⟩ => ⟨S378, .i1⟩
  | .hbm, ⟨6, _⟩ => ⟨S1x16384x128, .f32⟩
  | .hbm, ⟨7, _⟩ => ⟨S27x16384x128, .f32⟩
  | .hbm, ⟨8, _⟩ => ⟨S16384x27x128, .f32⟩
  | .hbm, ⟨9, _⟩ => ⟨S16384x27x27, .f32⟩
  | .hbm, ⟨10, _⟩ => ⟨S_, .i32⟩
  | .hbm, ⟨11, _⟩ => ⟨S378, .i32⟩
  | .hbm, ⟨12, _⟩ => ⟨S378, .i32⟩
  | .hbm, ⟨13, _⟩ => ⟨S378, .i32⟩
  | .hbm, ⟨14, _⟩ => ⟨S_, .i32⟩
  | .hbm, ⟨15, _⟩ => ⟨S378, .i32⟩
  | .hbm, ⟨16, _⟩ => ⟨S378, .i32⟩
  | .hbm, ⟨17, _⟩ => ⟨S378, .i32⟩
  | .hbm, ⟨18, _⟩ => ⟨S378x1, .i32⟩
  | .hbm, ⟨19, _⟩ => ⟨S378x1, .i32⟩
  | .hbm, ⟨20, _⟩ => ⟨S378x2, .i32⟩
  | .hbm, ⟨21, _⟩ => ⟨S16384x378, .f32⟩
  | .hbm, ⟨22, _⟩ => ⟨S16384x506, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S16384x128_S1x16384x128_1_2 : S16384x128.BroadcastsInDim S1x16384x128 (![1, 2] : Fin 2 → Fin S1x16384x128.rank)
  concatenates_S1x16384x128_S26x16384x128_S27x16384x128_d0 : Shape.Concatenates [S1x16384x128, S26x16384x128] S27x16384x128 0
  transposes_S27x16384x128_S16384x27x128_1_0_2 : S27x16384x128.Transposes [1, 0, 2] S16384x27x128
  bcast_S_S378 : S_.BroadcastsInDim S378 (![] : Fin 0 → Fin S378.rank)
  bcast_S378_S378x1_0 : S378.BroadcastsInDim S378x1 (![0] : Fin 1 → Fin S378x1.rank)
  concatenates_S378x1_S378x1_S378x2_d1 : Shape.Concatenates [S378x1, S378x1] S378x2 1
  concatenates_S16384x128_S16384x378_S16384x506_d1 : Shape.Concatenates [S16384x128, S16384x378] S16384x506 1
  dot_S16384x27x128_S16384x27x128_S16384x27x27_2_2_1_1_0_0_wf : DotDims.WF S16384x27x128 S16384x27x128 S16384x27x27 [2] [2] [1] [1] [0] [0]
  gather_S16384x27x27_S378x2_S16384x378_0_12_n_n_12_1_1638411_wf : GatherDims.WF S16384x27x27 S378x2 S16384x378 [0] [1, 2] [] [1, 2] [] 1 ![16384, 1, 1]

variable [Facts₀]

def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def gather_S16384x27x27_S378x2_S16384x378_0_12_n_n_12_1_1638411 : GatherDims S16384x27x27 S378x2 S16384x378 where
  offsetDims := [0]
  collapsedSliceDims := [1, 2]
  operandBatchingDims := []
  startIndicesBatchingDims := []
  startIndexMap := [1, 2]
  indexVectorDim := 1
  sliceSizes := ![16384, 1, 1]
  wf := gather_S16384x27x27_S378x2_S16384x378_0_12_n_n_12_1_1638411_wf

class Facts : Prop extends Facts₀ where

variable [Facts]
-- ==== Proof.Spec.lean ====
/-
  The function both programs compute, index by index, over the extended reals.

  For a batch of `B` rows, row `b` has 27 feature vectors of length 128: the dense row (feature 0) and the 26 sparse
  rows (features 1 … 26). The result row has 506 entries: the dense row itself (entries 0 … 127), then, for every
  pair `(i, j)` with `j ≤ i` taken row by row through the lower triangle (position `p` = entry `128 + p`), the dot
  product `∑ d, feature i d * feature j d`. Nothing here depends on the batch extent, so one definition serves a block
  of 1024 rows and the whole array of 16384.
-/
import Idealize.ShloMosaic.PureOps.Ideal
import Idealize.ShloMosaic.Lib.ValueIdx

noncomputable section

namespace Cert.Spec

open Idealize.ShloMosaic Idealize.ShloMosaic.ValueIdx

/-- The row of position `p` in the row-by-row walk of the lower triangle (diagonal included): the number of rows
    `i + 1 = 1 … 26` whose first position `(i + 1)(i + 2) / 2` is at most `p`. -/
def triRowN (p : Nat) : Nat := ((List.range 26).filter fun i => (i + 1) * (i + 2) / 2 ≤ p).length

/-- The column of position `p`: its distance from its row's first position `r (r + 1) / 2`. -/
def triColN (p : Nat) : Nat := p - triRowN p * (triRowN p + 1) / 2

/-- Row and column as feature numbers (the clamp is never active for `p < 378`; it spares a range proof). -/
def triRow (p : Fin 378) : Fin 27 := ⟨min (triRowN p.val) 26, by omega⟩
def triCol (p : Fin 378) : Fin 27 := ⟨min (triColN p.val) 26, by omega⟩

/-- Feature `n` of batch row `b` at lane `d`: the dense row for `n = 0`, sparse feature `n - 1` otherwise. -/
def featAt {B : Nat} (a0 : (⟨2, ![B, 128]⟩ : Shape).Idx → EReal) (a1 : (⟨3, ![26, B, 128]⟩ : Shape).Idx → EReal)
    (n : Fin 27) (b : Fin B) (d : Fin 128) : EReal :=
  if h : n.val = 0 then a0 (ix2 b d) else a1 (ix3 (⟨n.val - 1, by omega⟩ : Fin 26) b d)

/-- One result row from the row's 27 feature vectors `f`: the dense feature itself on the first 128 entries, then the
    lower triangle's dot products. -/
def rowOf (f : Fin 27 → Fin 128 → EReal) (q : Fin 506) : EReal :=
  if h : q.val < 128 then f 0 ⟨q.val, h⟩
  else ∑ d : Fin 128, f (triRow ⟨q.val - 128, by omega⟩) d * f (triCol ⟨q.val - 128, by omega⟩) d

/-- The whole result: entry `(b, q)` is entry `q` of the row made from batch row `b`'s features. -/
def G {B : Nat} (a0 : (⟨2, ![B, 128]⟩ : Shape).Idx → EReal) (a1 : (⟨3, ![26, B, 128]⟩ : Shape).Idx → EReal) :
    (⟨2, ![B, 506]⟩ : Shape).Idx → EReal :=
  fun i => rowOf (fun n d => featAt a0 a1 n (i 0) d) (i 1)

theorem G_ix2 {B : Nat} (a0 : (⟨2, ![B, 128]⟩ : Shape).Idx → EReal) (a1 : (⟨3, ![26, B, 128]⟩ : Shape).Idx → EReal)
    (b : Fin B) (q : Fin 506) : G a0 a1 (ix2 b q) = rowOf (fun n d => featAt a0 a1 n b d) q := rfl

/-- A row of the result depends only on that batch row of the inputs: if a block's inputs are the arrays' rows
    `off + r`, the block's result row `r` is the arrays' result row `off + r`. -/
theorem G_block {B B' : Nat} (a0 : (⟨2, ![B, 128]⟩ : Shape).Idx → EReal) (a1 : (⟨3, ![26, B, 128]⟩ : Shape).Idx → EReal)
    (x0 : (⟨2, ![B', 128]⟩ : Shape).Idx → EReal) (x1 : (⟨3, ![26, B', 128]⟩ : Shape).Idx → EReal)
    (r : Fin B') (b : Fin B)
    (h0 : ∀ d : Fin 128, x0 (ix2 r d) = a0 (ix2 b d))
    (h1 : ∀ (s : Fin 26) (d : Fin 128), x1 (ix3 s r d) = a1 (ix3 s b d)) (q : Fin 506) :
    G x0 x1 (ix2 r q) = G a0 a1 (ix2 b q) := by
  rw [G_ix2, G_ix2]
  congr 1
  funext n d
  unfold featAt
  split
  · exact h0 d
  · exact h1 _ d

end Cert.Spec

end
-- ==== Proof.KernelRow.lean ====
/-
  The body's arithmetic on one block, as pure functions of the 27 feature blocks of a point.

  A column is the lane sum of the product of two feature blocks, `∑ k, x r k * y r k` in row `r`. The body lays the
  378 columns of the lower triangle side by side (position `p` holds the pair of features `triRow p`, `triCol p`) and
  puts the dense block in front. Read at entry `(r, q)` of the [1024, 506] block this is the dense block's entry for
  `q < 128` and column `q - 128`'s sum otherwise: exactly the specification's row made from row `r`'s features.
-/
import proofs.«143111_j1082331758806_1_alg».proof.KernelIdeal
import proofs.«143111_j1082331758806_1_alg».proof.Proof.Spec
import Idealize.ShloMosaic.PureOps.Ideal.Laws
import Idealize.ShloMosaic.Lib.ValueIdx
import Idealize.ShloMosaic.Lib.Pipeline.Value

noncomputable section

namespace Cert.KernelIdeal.Row

open Cert.KernelIdeal Idealize.ShloMosaic Idealize.ShloMosaic.ValueIdx
open Facts₀ Facts

variable [Facts]
variable {F : FTy → Type} [FloatOps F]

/-- One column: the lane sums of the product of two feature blocks, kept as a [1024, 1] column. -/
def col (x y : FVec F S1024x128 .f32) : FVec F S1024x1 .f32 :=
  shapeCast S1024x1 (multiReduction .add [1] S1024 (mulf x y) 0x00000000#32 reduces_S1024x128_S1024 (.inl rfl) rfl)
    shapeCasts_S1024_S1024x1

/-- The column at position `p` of the triangle, from the family of feature blocks. -/
abbrev colOf (ft : Fin 27 → FVec F S1024x128 .f32) (p : Fin 378) : S1024x1.Idx → F .f32 :=
  col (ft (Cert.Spec.triRow p)) (ft (Cert.Spec.triCol p))

/-- All 378 columns have the one column shape. -/
theorem cols_shapes (ft : Fin 27 → FVec F S1024x128 .f32) :
    (List.ofFn fun p : Fin 378 => (⟨S1024x1, colOf ft p⟩ : (s : Shape) × (s.Idx → F .f32))).map (·.1)
      = List.replicate 378 S1024x1 := by
  rw [List.map_ofFn]
  exact List.ofFn_const 378 S1024x1

/-- 378 unit-width columns side by side fill the [1024, 378] triangle block. -/
theorem cols_concatenates (ft : Fin 27 → FVec F S1024x128 .f32) :
    Shape.Concatenates ((List.ofFn fun p : Fin 378 => (⟨S1024x1, colOf ft p⟩ : (s : Shape) × (s.Idx → F .f32))).map (·.1))
      S1024x378 1 := by
  rw [cols_shapes]
  decide

/-- The triangle block: the 378 columns side by side. -/
def tri (ft : Fin 27 → FVec F S1024x128 .f32) : FVec F S1024x378 .f32 :=
  concatenate S1024x378 1 (List.ofFn fun p : Fin 378 => (⟨S1024x1, colOf ft p⟩ : (s : Shape) × (s.Idx → F .f32)))
    (cols_concatenates ft)

/-- The whole result block: the dense block, then the triangle block. -/
def body (d : FVec F S1024x128 .f32) (ft : Fin 27 → FVec F S1024x128 .f32) : FVec F S1024x506 .f32 :=
  concatenate S1024x506 1 [⟨S1024x128, d⟩, ⟨S1024x378, tri ft⟩] concatenates_S1024x128_S1024x378_S1024x506_d1

/-! ## Read at an index, over the extended reals -/

/-- A column's entry in row `r` is the dot product of the two blocks' rows `r`. -/
theorem col_apply (x y : FVec Ideal S1024x128 .f32) (r : Fin 1024) (u : Fin 1) :
    col x y (ix2 r u) = ∑ k : Fin 128, x (ix2 r k) * y (ix2 r k) := by
  unfold col
  refine (shapeCast_apply _ shapeCasts_S1024_S1024x1 (ix2 r u) (ix1 r) ?_).trans ?_
  · rw [Shape.rowMajor_val_one, Shape.rowMajor_val_two]
    have hu : u.val = 0 := by omega
    show r.val = r.val * 1 + u.val
    omega
  · refine (Ideal.multiReduction_add_single (mulf x y) 0x00000000#32 reduces_S1024x128_S1024 (.inl rfl) rfl (ix1 r)).trans ?_
    show ∑ k : Fin 128, mulf x y (reduces_S1024x128_S1024.lift (ix1 r) k) = _
    refine Finset.sum_congr rfl fun k _ => ?_
    have e : reduces_S1024x128_S1024.lift (ix1 r) k = ix2 r k := by
      funext a
      match a with
      | ⟨0, _⟩ => exact Fin.ext rfl
      | ⟨1, _⟩ => exact Fin.ext rfl
    rw [e]
    rfl

/-- The triangle block at `(r, p)`: the dot product of row `r` of the two features of position `p`. -/
theorem tri_apply (ft : Fin 27 → FVec Ideal S1024x128 .f32) (r : Fin 1024) (p : Fin 378) :
    tri ft (ix2 r p)
      = ∑ k : Fin 128, ft (Cert.Spec.triRow p) (ix2 r k) * ft (Cert.Spec.triCol p) (ix2 r k) := by
  unfold tri
  refine (concatenate_ofFn_unit_apply (t := S1024x378) (s₁ := S1024x1) (1 : Fin 2) (fun p : Fin 378 => colOf ft p)
    (cols_concatenates ft) rfl rfl (ix2 r p) p rfl (ix2 r (0 : Fin 1)) ?_).trans (col_apply _ _ r 0)
  intro b hb
  match b with
  | ⟨0, _⟩ => rfl
  | ⟨1, _⟩ => exact absurd rfl hb

/-- The result block at `(r, q)`: the dense block in front, the triangle behind. -/
theorem body_apply (d : FVec Ideal S1024x128 .f32) (ft : Fin 27 → FVec Ideal S1024x128 .f32) (r : Fin 1024) (q : Fin 506) :
    body d ft (ix2 r q)
      = if h : q.val < 128 then d (ix2 r ⟨q.val, h⟩)
        else ∑ k : Fin 128, ft (Cert.Spec.triRow ⟨q.val - 128, by omega⟩) (ix2 r k)
              * ft (Cert.Spec.triCol ⟨q.val - 128, by omega⟩) (ix2 r k) := by
  unfold body
  split
  · next h =>
    refine concatenate_pair_apply_left (1 : Fin 2) d (tri ft) concatenates_S1024x128_S1024x378_S1024x506_d1 (ix2 r q) rfl
      (ix2 r ⟨q.val, h⟩) ?_
    intro b
    match b with
    | ⟨0, _⟩ => rfl
    | ⟨1, _⟩ => rfl
  · next h =>
    refine (concatenate_pair_apply_right (1 : Fin 2) d (tri ft) concatenates_S1024x128_S1024x378_S1024x506_d1 (ix2 r q) rfl rfl
      (ix2 r (⟨q.val - 128, by omega⟩ : Fin 378)) ?_ ?_).trans (tri_apply ft r _)
    · intro b hb
      match b with
      | ⟨0, _⟩ => rfl
      | ⟨1, _⟩ => exact absurd rfl hb
    · show (q.val - 128) + 128 = q.val
      omega

/-- If the dense block is feature 0 and every feature block's row `r` is the specification's feature row, the body's
    block is the specification's block. -/
theorem body_eq_G (x0 : FVec Ideal S1024x128 .f32) (x1 : FVec Ideal S26x1024x128 .f32)
    (d : FVec Ideal S1024x128 .f32) (ft : Fin 27 → FVec Ideal S1024x128 .f32)
    (hd : d = ft 0)
    (hft : ∀ (n : Fin 27) (r : Fin 1024) (k : Fin 128), ft n (ix2 r k) = Cert.Spec.featAt x0 x1 n r k) :
    body d ft = Cert.Spec.G x0 x1 := by
  funext j
  obtain ⟨r, q, rfl⟩ : ∃ (r : Fin 1024) (q : Fin 506), j = ix2 r q := ⟨j 0, j 1, eq_ix2 j⟩
  rw [body_apply, Cert.Spec.G_ix2]
  unfold Cert.Spec.rowOf
  split
  · next h => rw [hd]; exact hft 0 r ⟨q.val, h⟩
  · next h => exact Finset.sum_congr rfl fun k _ => by rw [hft, hft]

end Cert.KernelIdeal.Row

end
-- ==== Proof.KernelPayload.lean ====
/-
  What the body stores into the output block, as the specification's block function of the two input blocks.

  The 27 feature blocks of a point are the dense block and the 26 slices `s` of the sparse block (rows `(s, r, k)`
  of the [26, 1024, 128] block laid out as a [1024, 128] block). The body's one store writes the whole [1024, 506]
  block with the dense block in front and, behind it, one column per position of the lower triangle, each the lane
  sum of a product of two feature blocks; so the stored block is `Row.body` of that family of feature blocks, and
  entry by entry `Spec.G` of the two input blocks.
-/
import proofs.«143111_j1082331758806_1_alg».proof.Proof.PatchedKernelIdealFrame
import proofs.«143111_j1082331758806_1_alg».proof.Proof.KernelRow
import Idealize.ShloMosaic.Lib.ValueLayout

set_option maxRecDepth 65536

noncomputable section

namespace Cert.KernelIdeal.Payload

open Cert.KernelIdeal Cert.KernelIdeal.Gen Cert.KernelIdeal.GenP Cert.KernelIdeal.Row Idealize.ShloMosaic Idealize.ShloMosaic.ValueIdx

variable {F : FTy → Type} [FloatOps F]

/-- Slice `s` of the sparse block lies inside it. -/
theorem slice_inb (s : Fin 26) :
    ∀ a, (![s.val, 0, 0] : Fin 3 → Nat) a + S1x1024x128.size a ≤ S26x1024x128.size a := by
  intro a
  match a with
  | ⟨0, _⟩ => show s.val + 1 ≤ 26; omega
  | ⟨1, _⟩ => show 0 + 1024 ≤ 1024; omega
  | ⟨2, _⟩ => show 0 + 128 ≤ 128; omega

/-- Sparse feature `s` of the point: the [1, 1024, 128] slice at offset `s` of the sparse block, as a [1024, 128] block. -/
def slice (x1 : Vec F S26x1024x128 .f32) (s : Fin 26) : FVec F S1024x128 .f32 :=
  shapeCast S1024x128 (View.ld x1 (Rect.unit (s := S26x1024x128) ![s.val, 0, 0] S1x1024x128.size (slice_inb s)))
    Facts₀.shapeCasts_S1x1024x128_S1024x128

/-- The point's 27 feature blocks: the dense block, then the sparse slices. -/
def feat (x0 : Vec F S1024x128 .f32) (x1 : Vec F S26x1024x128 .f32) (n : Fin 27) : FVec F S1024x128 .f32 :=
  if h : n.val = 0 then View.ld x0 r0_0 else slice x1 ⟨n.val - 1, by omega⟩

/-- The body's store is `Row.body` of the feature blocks: the printed columns, position by position, are the
    columns of the pairs `(triRow p, triCol p)`, by computation of both sides. -/
theorem out0_2_eq (x0 : Vec F S1024x128 .f32) (x1 : Vec F S26x1024x128 .f32) :
    out0_2 x0 x1 = View.canon [⟨r0_27, body (View.ld x0 r0_0) (feat x0 x1)⟩] := by
  unfold out0_2
  rfl

/-! ## Over the extended reals, index by index -/

theorem hz2 : (![0, 0] : Fin 2 → Nat) = fun _ => 0 := funext fun a => by fin_cases a <;> rfl

/-- A sparse feature block's entry `(r, k)` is the sparse block's entry `(s, r, k)`. -/
theorem slice_apply (x1 : Vec Ideal S26x1024x128 .f32) (s : Fin 26) (r : Fin 1024) (k : Fin 128) :
    slice x1 s (ix2 r k) = x1 (ix3 s r k) := by
  unfold slice
  refine (shapeCast_1ab_ab_apply (a := 1024) (b := 128) _ _ r k).trans ?_
  show x1 ((Rect.unit (s := S26x1024x128) ![s.val, 0, 0] S1x1024x128.size (slice_inb s)).idx (ix3 (0 : Fin 1) r k))
    = x1 (ix3 s r k)
  congr 1
  funext a
  match a with
  | ⟨0, _⟩ => exact Fin.ext (show s.val + 1 * 0 = s.val by omega)
  | ⟨1, _⟩ => exact Fin.ext (show 0 + 1 * r.val = r.val by omega)
  | ⟨2, _⟩ => exact Fin.ext (show 0 + 1 * k.val = k.val by omega)

/-- Feature block `n` at `(r, k)` is the specification's feature `n` of row `r` at lane `k`. -/
theorem feat_apply (x0 : Vec Ideal S1024x128 .f32) (x1 : Vec Ideal S26x1024x128 .f32) (n : Fin 27) (r : Fin 1024)
    (k : Fin 128) : feat x0 x1 n (ix2 r k) = Cert.Spec.featAt x0 x1 n r k := by
  unfold feat Cert.Spec.featAt
  by_cases h : n.val = 0
  · rw [dif_pos h, dif_pos h, View.ld_unit_zero hz2]
  · rw [dif_neg h, dif_neg h]
    exact slice_apply x1 _ r k

/-- THE STORED BLOCK is the specification's block function of the two input blocks. -/
theorem out0_2_eq_G (x0 : Vec Ideal S1024x128 .f32) (x1 : Vec Ideal S26x1024x128 .f32) :
    out0_2 x0 x1 = Cert.Spec.G x0 x1 := by
  rw [out0_2_eq, View.canon_unit_zero hz2]
  exact body_eq_G x0 x1 _ _ rfl (feat_apply x0 x1)

end Cert.KernelIdeal.Payload

end
-- ==== Proof.KernelArray.lean ====
/-
  From blocks to the array: what the idealized kernel's result array holds after the run, as one function of the
  argument arrays.

  Grid point `t` (of 16) stages rows `1024 t … 1024 t + 1023` of the dense array and of every sparse feature, and writes
  back rows `1024 t … 1024 t + 1023` of the result, all 506 columns. A result row depends only on that batch row of the
  inputs, so what point `t` writes back is block `t` of `Spec.G` of the whole argument arrays; the 16 blocks tile the
  result, so after the run the result array is `Spec.G` of the arguments.
-/
import proofs.«143111_j1082331758806_1_alg».proof.Proof.PatchedKernelIdealValue
import proofs.«143111_j1082331758806_1_alg».proof.Proof.KernelPayload

set_option maxRecDepth 16384

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- A result row depends only on its batch row: if block inputs `x0`, `x1` at row `j 0` are the arrays `a0`, `a1` at
    row `i 0`, and the two indices name the same column, the block's entry is the array's. -/
theorem G_congr_row {B B' : Nat} (a0 : (⟨2, ![B, 128]⟩ : Shape).Idx → EReal) (a1 : (⟨3, ![26, B, 128]⟩ : Shape).Idx → EReal)
    (x0 : (⟨2, ![B', 128]⟩ : Shape).Idx → EReal) (x1 : (⟨3, ![26, B', 128]⟩ : Shape).Idx → EReal)
    (j : (⟨2, ![B', 506]⟩ : Shape).Idx) (i : (⟨2, ![B, 506]⟩ : Shape).Idx) (hq : (i 1).val = (j 1).val)
    (h0 : ∀ d : Fin 128, x0 (ix2 (j 0) d) = a0 (ix2 (i 0) d))
    (h1 : ∀ (s : Fin 26) (d : Fin 128), x1 (ix3 s (j 0) d) = a1 (ix3 s (i 0) d)) :
    Cert.Spec.G x0 x1 j = Cert.Spec.G a0 a1 i := by
  have e : j 1 = i 1 := Fin.ext hq.symm
  calc Cert.Spec.G x0 x1 j = Cert.Spec.G x0 x1 (ix2 (j 0) (j 1)) := congrArg _ (eq_ix2 j)
    _ = Cert.Spec.G a0 a1 (ix2 (i 0) (j 1)) := Cert.Spec.G_block a0 a1 x0 x1 (j 0) (i 0) h0 h1 (j 1)
    _ = Cert.Spec.G a0 a1 i := congrArg _ (by rw [e]; exact (eq_ix2 i).symm)

variable (m : (ℓ : Loc nD τ sig) → Buf (Elt Ideal) ℓ) (ρ : Dev nD → PrngReg)

/-- The argument arrays as the region finds them, and the input blocks of a point, at their literal types. -/
abbrev denseArr (c : Dev nD) : Vec Ideal S16384x128 .f32 := V m c main_arg0
abbrev sparseArr (c : Dev nD) : Vec Ideal S26x16384x128 .f32 := V m c main_arg1
abbrev denseBlk (c : Dev nD) (t : Fin cfg0.N) : Vec Ideal S1024x128 .f32 := iblk m c 0 t
abbrev sparseBlk (c : Dev nD) (t : Fin cfg0.N) : Vec Ideal S26x1024x128 .f32 := iblk m c 1 t

/-- The index maps over the grid: point `t` takes block `t` along the batch axis of every window, block 0 elsewhere. -/
theorem idx_facts : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0 :=
  (by decide +kernel : ∀ t : Fin grid0.N, _)

/-- WHAT POINT `t` WRITES BACK is block `t` of `Spec.G` of the argument arrays. -/
theorem flushed2_eq (c : Dev nD) (t : Fin cfg0.N) :
    (dats m 0 c).flushed 2 t
      = ((cfg0.win 2).blk t).view.read (Elt Ideal) (Cert.Spec.G (denseArr m c) (sparseArr m c)) := by
  rw [Cert.KernelIdeal.ValueP.flushed2]
  have e : out0_2 (iblk m c 0 t) (iblk m c 1 t) = Cert.Spec.G (denseBlk m c t) (sparseBlk m c t) :=
    Cert.KernelIdeal.Payload.out0_2_eq_G (denseBlk m c t) (sparseBlk m c t)
  rw [e]
  obtain ⟨e0, e1, e2, e3, e4, e5, e6⟩ := idx_facts t
  funext j
  show Cert.Spec.G (denseBlk m c t) (sparseBlk m c t) j
    = Cert.Spec.G (denseArr m c) (sparseArr m c) (((cfg0.win 2).blk t).view.emb j)
  refine G_congr_row _ _ _ _ j _ ?_ ?_ ?_
  · show win0_2.index t (1 : Fin 2) * 506 + 1 * (j 1).val = (j 1).val
    omega
  · intro d
    show V m c main_arg0 (((cfg0.win 0).blk t).view.emb (ix2 (j 0) d))
      = V m c main_arg0 (ix2 ((((cfg0.win 2).blk t).view.emb j) 0) d)
    congr 1
    funext a
    apply Fin.ext
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 128 + 1 * d.val = d.val
      omega
  · intro s d
    show V m c main_arg1 (((cfg0.win 1).blk t).view.emb (ix3 s (j 0) d))
      = V m c main_arg1 (ix3 s ((((cfg0.win 2).blk t).view.emb j) 0) d)
    congr 1
    funext a
    apply Fin.ext
    match a with
    | ⟨0, _⟩ =>
      show win0_1.index t (0 : Fin 3) * 26 + 1 * s.val = s.val
      omega
    | ⟨1, _⟩ =>
      show win0_1.index t (1 : Fin 3) * 1024 + 1 * (j 0).val = win0_2.index t (0 : Fin 2) * 1024 + 1 * (j 0).val
      omega
    | ⟨2, _⟩ =>
      show win0_1.index t (2 : Fin 3) * 128 + 1 * d.val = d.val
      omega

/-- An index of the result array is in point `t`'s block iff each coordinate is in the block's range on its axis. -/
theorem mem_blk2 (t : Fin cfg0.N) (i : S16384x506.Idx) :
    i ∈ ((cfg0.win 2).blk t).view.set ↔ ∀ a : Fin 2, win0_2.index t a * S1024x506.size a ≤ (i a).val
      ∧ (i a).val < win0_2.index t a * S1024x506.size a + S1024x506.size a := by
  show i ∈ ((View.whole main_v0).slice (win0_2.rect t)).set ↔ _
  rw [View.set_slice_whole, Rect.mem_set_unit]
  exact Iff.rfl

/-- Every index of the result array is in the block of the point `row / 1024`, which writes back. -/
theorem cover2 (i : S16384x506.Idx) :
    ∃ t : Fin cfg0.N, (cfg0.win 2).flush t = true ∧ i ∈ ((cfg0.win 2).blk t).view.set := by
  have hi0 : (i 0).val < 16384 := (i 0).isLt
  have hi1 : (i 1).val < 506 := (i 1).isLt
  have ht : (i 0).val / 1024 < 16 := by omega
  obtain ⟨-, -, -, -, -, e5, e6⟩ := idx_facts (⟨(i 0).val / 1024, ht⟩ : Fin cfg0.N)
  refine ⟨⟨(i 0).val / 1024, ht⟩, flush0_2 _, ?_⟩
  rw [mem_blk2]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e5]
    show (i 0).val / 1024 * 1024 ≤ (i 0).val ∧ (i 0).val < (i 0).val / 1024 * 1024 + 1024
    omega
  | ⟨1, _⟩ =>
    show win0_2.index ⟨(i 0).val / 1024, ht⟩ (1 : Fin 2) * 506 ≤ (i 1).val
      ∧ (i 1).val < win0_2.index ⟨(i 0).val / 1024, ht⟩ (1 : Fin 2) * 506 + 506
    rw [e6]
    omega

/-- THE RESULT ARRAY after the run is `Spec.G` of the argument arrays. -/
theorem final2 (c : Dev nD) :
    (dats m 0 c).arrAt 2 cfg0.N
      = Cert.Spec.G (m ((c : Thread nD τ).loc main_arg0)) (m ((c : Thread nD τ).loc main_arg1)) :=
  (dats m 0 c).arrAt_eq_of_cover 2 _ (fun t _ => flushed2_eq m c t) cover2

/-- The run: every weakly fair execution ends with the result array at `Spec.G` of the arguments, the arguments
    unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩)
    (Cert.KernelIdeal.ValueP.run_blocks m ρ)

end Cert.KernelIdeal.KValue

end
-- ==== Proof.RefRun.lean ====
/-
  The reference program's @main as a list of its 21 host operations, and its run read back: from any memory with
  zero counters every weakly fair execution terminates with the result buffer at the operations' composed term of
  the two arguments' launch contents, and the arguments unchanged.

  The composed term, written out once as `refTerm`: the result is the dense rows followed, along axis 1, by a gather
  from the batched Gram array (the 27 feature vectors of every batch row, contracted pairwise over their 128 lanes)
  at the start indices the two literal tables give.
-/
import proofs.«143111_j1082331758806_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 21 operations, in order. -/
abbrev ops : List (HloOp τ sig (Elt F)) :=
  [ nullary main_c (fun i => lit0 (S378.rowMajor i)),
    nullary main_c_0 (constantI S378 1 0#1),
    nullary main_c_1 (fun i => lit1 (S378.rowMajor i)),
    nullary main_c_2 (constantI S378 1 0#1),
    unary main_arg0 main_v0 (broadcastInDim S1x16384x128 ![1, 2] bcast_S16384x128_S1x16384x128_1_2 : (⟨S16384x128, .f32⟩ : BufTy).Contents (Elt F) → (⟨S1x16384x128, .f32⟩ : BufTy).Contents (Elt F)),
    binary main_v0 main_arg1 main_v1 ((fun a b => concatenate S27x16384x128 0 [⟨S1x16384x128, a⟩, ⟨S26x16384x128, b⟩] concatenates_S1x16384x128_S26x16384x128_S27x16384x128_d0) : (⟨S1x16384x128, .f32⟩ : BufTy).Contents (Elt F) → (⟨S26x16384x128, .f32⟩ : BufTy).Contents (Elt F) → (⟨S27x16384x128, .f32⟩ : BufTy).Contents (Elt F)),
    unary main_v1 main_v2 ((transpose S16384x27x128 [1, 0, 2] · transposes_S27x16384x128_S16384x27x128_1_0_2) : (⟨S27x16384x128, .f32⟩ : BufTy).Contents (Elt F) → (⟨S16384x27x128, .f32⟩ : BufTy).Contents (Elt F)),
    binary main_v2 main_v2 main_v3 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)),
    nullary main_c_3 (constantI S_ 32 27#32),
    unary main_c_3 main_v4 (broadcastInDim S378 ![] bcast_S_S378 : (⟨S_, .i32⟩ : BufTy).Contents (Elt F) → (⟨S378, .i32⟩ : BufTy).Contents (Elt F)),
    binary main_c main_v4 main_v5 (addi : (⟨S378, .i32⟩ : BufTy).Contents (Elt F) → (⟨S378, .i32⟩ : BufTy).Contents (Elt F) → (⟨S378, .i32⟩ : BufTy).Contents (Elt F)),
    ternary main_c_0 main_v5 main_c main_v6 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    nullary main_c_4 (constantI S_ 32 27#32),
    unary main_c_4 main_v7 (broadcastInDim S378 ![] bcast_S_S378 : (⟨S_, .i32⟩ : BufTy).Contents (Elt F) → (⟨S378, .i32⟩ : BufTy).Contents (Elt F)),
    binary main_c_1 main_v7 main_v8 (addi : (⟨S378, .i32⟩ : BufTy).Contents (Elt F) → (⟨S378, .i32⟩ : BufTy).Contents (Elt F) → (⟨S378, .i32⟩ : BufTy).Contents (Elt F)),
    ternary main_c_2 main_v8 main_c_1 main_v9 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    unary main_v6 main_v10 (broadcastInDim S378x1 ![0] bcast_S378_S378x1_0 : (⟨S378, .i32⟩ : BufTy).Contents (Elt F) → (⟨S378x1, .i32⟩ : BufTy).Contents (Elt F)),
    unary main_v9 main_v11 (broadcastInDim S378x1 ![0] bcast_S378_S378x1_0 : (⟨S378, .i32⟩ : BufTy).Contents (Elt F) → (⟨S378x1, .i32⟩ : BufTy).Contents (Elt F)),
    binary main_v10 main_v11 main_v12 ((fun a b => concatenate S378x2 1 [⟨S378x1, a⟩, ⟨S378x1, b⟩] concatenates_S378x1_S378x1_S378x2_d1) : (⟨S378x1, .i32⟩ : BufTy).Contents (Elt F) → (⟨S378x1, .i32⟩ : BufTy).Contents (Elt F) → (⟨S378x2, .i32⟩ : BufTy).Contents (Elt F)),
    binary main_v3 main_v12 main_v13 ((fun x i => Host.gather gather_S16384x27x27_S378x2_S16384x378_0_12_n_n_12_1_1638411 x i) : (⟨S16384x27x27, .f32⟩ : BufTy).Contents (Elt F) → (⟨S378x2, .i32⟩ : BufTy).Contents (Elt F) → (⟨S16384x378, .f32⟩ : BufTy).Contents (Elt F)),
    binary main_arg0 main_v13 main_v14 ((fun a b => concatenate S16384x506 1 [⟨S16384x128, a⟩, ⟨S16384x378, b⟩] concatenates_S16384x128_S16384x378_S16384x506_d1) : (⟨S16384x128, .f32⟩ : BufTy).Contents (Elt F) → (⟨S16384x378, .f32⟩ : BufTy).Contents (Elt F) → (⟨S16384x506, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub ..,
   unary_bufs_sub .., binary_bufs_sub .., nullary_bufs_sub .., unary_bufs_sub .., binary_bufs_sub .., ternary_bufs_sub ..,
   nullary_bufs_sub .., unary_bufs_sub .., binary_bufs_sub .., ternary_bufs_sub .., unary_bufs_sub .., unary_bufs_sub ..,
   binary_bufs_sub .., binary_bufs_sub .., binary_bufs_sub ..⟩

/-- The start indices of the gather: column 0 the first table, column 1 the second, each passed through a select on
    an all-false mask (which keeps its third operand). -/
def startIdx : IVec S378x2 32 :=
  concatenate S378x2 1
    [⟨S378x1, broadcastInDim S378x1 ![0] bcast_S378_S378x1_0
        (select (constantI S378 1 0#1)
          (addi (fun i => lit0 (S378.rowMajor i)) (broadcastInDim S378 ![] bcast_S_S378 (constantI S_ 32 27#32)))
          (fun i => lit0 (S378.rowMajor i)))⟩,
     ⟨S378x1, broadcastInDim S378x1 ![0] bcast_S378_S378x1_0
        (select (constantI S378 1 0#1)
          (addi (fun i => lit1 (S378.rowMajor i)) (broadcastInDim S378 ![] bcast_S_S378 (constantI S_ 32 27#32)))
          (fun i => lit1 (S378.rowMajor i)))⟩]
    concatenates_S378x1_S378x1_S378x2_d1

/-- The 27 feature vectors of every batch row, batch axis first: the dense array as one more leading feature in front
    of the sparse ones, then the two leading axes swapped. -/
def feats (a0 : FVec F S16384x128 .f32) (a1 : FVec F S26x16384x128 .f32) : FVec F S16384x27x128 .f32 :=
  transpose S16384x27x128 [1, 0, 2]
    (concatenate S27x16384x128 0
      [⟨S1x16384x128, broadcastInDim S1x16384x128 ![1, 2] bcast_S16384x128_S1x16384x128_1_2 a0⟩, ⟨S26x16384x128, a1⟩]
      concatenates_S1x16384x128_S26x16384x128_S27x16384x128_d0)
    transposes_S27x16384x128_S16384x27x128_1_0_2

/-- The operations' composed term of the two arguments. -/
def refTerm (a0 : FVec F S16384x128 .f32) (a1 : FVec F S26x16384x128 .f32) : FVec F S16384x506 .f32 :=
  concatenate S16384x506 1
    [⟨S16384x128, a0⟩,
     ⟨S16384x378, Host.gather gather_S16384x27x27_S378x2_S16384x378_0_12_n_n_12_1_1638411
        (Host.dotGeneral dot_S16384x27x128_S16384x27x128_S16384x27x27_2_2_1_1_0_0 none (feats a0 a1) (feats a0 a1))
        startIdx⟩]
    concatenates_S16384x128_S16384x378_S16384x506_d1

/-- What the result buffer holds after the 21 operations, from contents V: the composed term of the two arguments. -/
theorem after_v14 (V : Valuation τ sig (Elt F)) :
    after (ops (F := F)) V (Proc.devRef .tc main_v14)
      = refTerm (V (Proc.devRef .tc main_arg0)) (V (Proc.devRef .tc main_arg1)) := by
  unfold refTerm feats startIdx
  after_results
  rfl

/-- No operation writes the first argument. -/
theorem after_arg0 (V : Valuation τ sig (Elt F)) :
    after (ops (F := F)) V (Proc.devRef .tc main_arg0) = V (Proc.devRef .tc main_arg0) := by
  after_results

/-- No operation writes the second argument. -/
theorem after_arg1 (V : Valuation τ sig (Elt F)) :
    after (ops (F := F)) V (Proc.devRef .tc main_arg1) = V (Proc.devRef .tc main_arg1) := by
  after_results

/-- On the device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v14).trans (after_v14 _),
      (h c main_arg0).trans (after_arg0 _),
      (h c main_arg1).trans (after_arg1 _)⟩)
    (run_seq scopedRefs_eq scopedSems_eq defs main (fun _ => ops) main_eq (fun _ => ops_sub) m ρ)

end Cert.ReferenceIdeal.RefRun

end
-- ==== Proof.RefValue.lean ====
/-
  The reference program's result is the specification's array.

  The run of the 21 host operations leaves the result buffer at their composed term of the two arguments: the dense
  rows followed along axis 1 by a gather from the batched Gram array. Read index by index over the extended reals:

  * the feature array (the dense array as one more leading feature in front of the 26 sparse ones, batch axis moved to the
    front) at (b, n, d) is feature n of batch row b at lane d;
  * the batched dot_general at (b, i, j) is the sum over the 128 lanes of feature i times feature j of batch row b;
  * the gather at (b, p) reads that array at (b, r, c) with r and c the two components of start index p, each clamped
    into 0 … 26; the components are the two literal tables (each passes through a select on an all-false mask);
  * the tables are, position by position, the row and the column of the row-by-row walk of the lower triangle, which is
    how the specification names the pair of position p (checked by evaluation over the 378 positions);
  * the final concatenate puts the dense row on entries 0 … 127 and the gather on entries 128 … 505.
-/
import proofs.«143111_j1082331758806_1_alg».proof.Proof.RefRun
import proofs.«143111_j1082331758806_1_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx

/-! ## The batched Gram array at an index

The dot_general contracts axis 2 of both operands, batches over axis 0, and puts the left operand's axis 1 before the
right operand's axis 1. Each operand index at result index i and contraction index q is read axis by axis. -/

theorem lhs_0 (i : S16384x27x27.Idx) (q : dot_S16384x27x128_S16384x27x128_S16384x27x27_2_2_1_1_0_0.contr.Idx) : (dot_S16384x27x128_S16384x27x128_S16384x27x27_2_2_1_1_0_0.lhsIdx i q 0).val = (i 0).val := by
  unfold DotDims.lhsIdx
  rw [dif_pos (show (0 : Fin S16384x27x128.rank) ∈ dot_S16384x27x128_S16384x27x128_S16384x27x27_2_2_1_1_0_0.lhsBatch by decide)]
  rfl
theorem lhs_1 (i : S16384x27x27.Idx) (q : dot_S16384x27x128_S16384x27x128_S16384x27x27_2_2_1_1_0_0.contr.Idx) : (dot_S16384x27x128_S16384x27x128_S16384x27x27_2_2_1_1_0_0.lhsIdx i q 1).val = (i 1).val := by
  unfold DotDims.lhsIdx
  rw [dif_neg (show ¬(1 : Fin S16384x27x128.rank) ∈ dot_S16384x27x128_S16384x27x128_S16384x27x27_2_2_1_1_0_0.lhsBatch by decide),
    dif_pos (show (1 : Fin S16384x27x128.rank) ∈ dot_S16384x27x128_S16384x27x128_S16384x27x27_2_2_1_1_0_0.lhsNonContracting by decide)]
  rfl
theorem lhs_2 (i : S16384x27x27.Idx) (q : dot_S16384x27x128_S16384x27x128_S16384x27x27_2_2_1_1_0_0.contr.Idx) : (dot_S16384x27x128_S16384x27x128_S16384x27x27_2_2_1_1_0_0.lhsIdx i q 2).val = (q ⟨0, by decide⟩).val :=
  dot_S16384x27x128_S16384x27x128_S16384x27x27_2_2_1_1_0_0.lhsIdx_val_of_single rfl i q
theorem rhs_0 (i : S16384x27x27.Idx) (q : dot_S16384x27x128_S16384x27x128_S16384x27x27_2_2_1_1_0_0.contr.Idx) : (dot_S16384x27x128_S16384x27x128_S16384x27x27_2_2_1_1_0_0.rhsIdx i q 0).val = (i 0).val := by
  unfold DotDims.rhsIdx
  rw [dif_pos (show (0 : Fin S16384x27x128.rank) ∈ dot_S16384x27x128_S16384x27x128_S16384x27x27_2_2_1_1_0_0.rhsBatch by decide)]
  rfl
theorem rhs_1 (i : S16384x27x27.Idx) (q : dot_S16384x27x128_S16384x27x128_S16384x27x27_2_2_1_1_0_0.contr.Idx) : (dot_S16384x27x128_S16384x27x128_S16384x27x27_2_2_1_1_0_0.rhsIdx i q 1).val = (i 2).val := by
  unfold DotDims.rhsIdx
  rw [dif_neg (show ¬(1 : Fin S16384x27x128.rank) ∈ dot_S16384x27x128_S16384x27x128_S16384x27x27_2_2_1_1_0_0.rhsBatch by decide),
    dif_pos (show (1 : Fin S16384x27x128.rank) ∈ dot_S16384x27x128_S16384x27x128_S16384x27x27_2_2_1_1_0_0.rhsNonContracting by decide)]
  rfl
theorem rhs_2 (i : S16384x27x27.Idx) (q : dot_S16384x27x128_S16384x27x128_S16384x27x27_2_2_1_1_0_0.contr.Idx) : (dot_S16384x27x128_S16384x27x128_S16384x27x27_2_2_1_1_0_0.rhsIdx i q 2).val = (q ⟨0, by decide⟩).val :=
  dot_S16384x27x128_S16384x27x128_S16384x27x27_2_2_1_1_0_0.rhsIdx_val_of_single rfl i q

/-- The batched Gram array at (b, i, j): the dot product over the 128 lanes of rows i and j of batch b. -/
theorem gram_apply (T : FVec Ideal S16384x27x128 .f32) (b : Fin 16384) (i j : Fin 27) :
    Host.dotGeneral (F := Ideal) dot_S16384x27x128_S16384x27x128_S16384x27x27_2_2_1_1_0_0 none T T (ix3 b i j) = ∑ d : Fin 128, T (ix3 b i d) * T (ix3 b j d) := by
  simp only [Host.dotGeneral]
  rw [Ideal.dotGeneral_apply, ← Equiv.sum_comp (ValueIdx.contrEquiv1 dot_S16384x27x128_S16384x27x128_S16384x27x27_2_2_1_1_0_0 128 rfl rfl).symm]
  refine Finset.sum_congr rfl fun k _ => ?_
  have hk := ValueIdx.contrEquiv1_symm_val dot_S16384x27x128_S16384x27x128_S16384x27x27_2_2_1_1_0_0 128 rfl rfl k
  have el : dot_S16384x27x128_S16384x27x128_S16384x27x27_2_2_1_1_0_0.lhsIdx (ix3 b i j) ((ValueIdx.contrEquiv1 dot_S16384x27x128_S16384x27x128_S16384x27x27_2_2_1_1_0_0 128 rfl rfl).symm k) = ix3 b i k :=
    funext fun a => Fin.ext (by
      match a with
      | ⟨0, _⟩ => exact lhs_0 _ _
      | ⟨1, _⟩ => exact lhs_1 _ _
      | ⟨2, _⟩ => exact (lhs_2 _ _).trans hk)
  have er : dot_S16384x27x128_S16384x27x128_S16384x27x27_2_2_1_1_0_0.rhsIdx (ix3 b i j) ((ValueIdx.contrEquiv1 dot_S16384x27x128_S16384x27x128_S16384x27x27_2_2_1_1_0_0 128 rfl rfl).symm k) = ix3 b j k :=
    funext fun a => Fin.ext (by
      match a with
      | ⟨0, _⟩ => exact rhs_0 _ _
      | ⟨1, _⟩ => exact rhs_1 _ _
      | ⟨2, _⟩ => exact (rhs_2 _ _).trans hk)
  rw [el, er]

/-! ## The gather at an index

Result axis 0 is the one offset axis and reads operand axis 0 whole (slice size 16384, start 0); result axis 1 is the
one batch axis and walks the 378 start indices; operand axes 1 and 2 are collapsed (slice size 1) and start at the two
components of the start index, each read signed and clamped into 0 … 26. -/

/-- The start-indices index of component c of the start index at result index (b, p): (p, c). -/
theorem siIdx_eq (b : Fin 16384) (p : Fin 378) (c : Fin gather_S16384x27x27_S378x2_S16384x378_0_12_n_n_12_1_1638411.startIndexMap.length) :
    gather_S16384x27x27_S378x2_S16384x378_0_12_n_n_12_1_1638411.siIdx (ix2 b p) c = ix2 p ⟨c.val, c.isLt⟩ := by
  funext a; refine Fin.ext ?_
  match a with
  | ⟨0, _⟩ => rfl
  | ⟨1, _⟩ => rfl

theorem gather_apply {α : Type} (x : S16384x27x27.Idx → α) (idx : IVec S378x2 32) (b : Fin 16384) (p : Fin 378) :
    Host.gather gather_S16384x27x27_S378x2_S16384x378_0_12_n_n_12_1_1638411 x idx (ix2 b p)
      = x (ix3 b ⟨min (idx (ix2 p 0)).toInt.toNat 26, by omega⟩ ⟨min (idx (ix2 p 1)).toInt.toNat 26, by omega⟩) := by
  unfold Host.gather
  congr 1
  funext a
  refine Fin.ext ?_
  show gather_S16384x27x27_S378x2_S16384x378_0_12_n_n_12_1_1638411.start (ix2 b p) idx a + gather_S16384x27x27_S378x2_S16384x378_0_12_n_n_12_1_1638411.batchCoord (ix2 b p) a + gather_S16384x27x27_S378x2_S16384x378_0_12_n_n_12_1_1638411.offCoord (ix2 b p) a = _
  rw [GatherDims.batchCoord_eq_zero _ _ _ List.not_mem_nil, Nat.add_zero]
  match a with
  | ⟨0, _⟩ =>
    have hs : gather_S16384x27x27_S378x2_S16384x378_0_12_n_n_12_1_1638411.start (ix2 b p) idx (0 : Fin 3) = 0 := by
      unfold GatherDims.start
      rw [dif_neg (show ¬(0 : Fin S16384x27x27.rank) ∈ gather_S16384x27x27_S378x2_S16384x378_0_12_n_n_12_1_1638411.startIndexMap by decide)]
    have ho : gather_S16384x27x27_S378x2_S16384x378_0_12_n_n_12_1_1638411.offCoord (ix2 b p) (0 : Fin 3) = b.val := by
      unfold GatherDims.offCoord
      rw [dif_pos (show (0 : Fin S16384x27x27.rank) ∈ gather_S16384x27x27_S378x2_S16384x378_0_12_n_n_12_1_1638411.sKept by decide)]
      rfl
    show gather_S16384x27x27_S378x2_S16384x378_0_12_n_n_12_1_1638411.start (ix2 b p) idx (0 : Fin 3) + gather_S16384x27x27_S378x2_S16384x378_0_12_n_n_12_1_1638411.offCoord (ix2 b p) (0 : Fin 3) = b.val
    rw [hs, ho, Nat.zero_add]
  | ⟨1, _⟩ =>
    have ho : gather_S16384x27x27_S378x2_S16384x378_0_12_n_n_12_1_1638411.offCoord (ix2 b p) (1 : Fin 3) = 0 :=
      GatherDims.offCoord_eq_zero _ _ _ (show ¬(1 : Fin S16384x27x27.rank) ∈ gather_S16384x27x27_S378x2_S16384x378_0_12_n_n_12_1_1638411.sKept by decide)
    have hs : gather_S16384x27x27_S378x2_S16384x378_0_12_n_n_12_1_1638411.start (ix2 b p) idx (1 : Fin 3) = min (idx (ix2 p 0)).toInt.toNat 26 := by
      unfold GatherDims.start
      rw [dif_pos (show (1 : Fin S16384x27x27.rank) ∈ gather_S16384x27x27_S378x2_S16384x378_0_12_n_n_12_1_1638411.startIndexMap by decide), siIdx_eq]
      rfl
    show gather_S16384x27x27_S378x2_S16384x378_0_12_n_n_12_1_1638411.start (ix2 b p) idx (1 : Fin 3) + gather_S16384x27x27_S378x2_S16384x378_0_12_n_n_12_1_1638411.offCoord (ix2 b p) (1 : Fin 3) = min (idx (ix2 p 0)).toInt.toNat 26
    rw [hs, ho, Nat.add_zero]
  | ⟨2, _⟩ =>
    have ho : gather_S16384x27x27_S378x2_S16384x378_0_12_n_n_12_1_1638411.offCoord (ix2 b p) (2 : Fin 3) = 0 :=
      GatherDims.offCoord_eq_zero _ _ _ (show ¬(2 : Fin S16384x27x27.rank) ∈ gather_S16384x27x27_S378x2_S16384x378_0_12_n_n_12_1_1638411.sKept by decide)
    have hs : gather_S16384x27x27_S378x2_S16384x378_0_12_n_n_12_1_1638411.start (ix2 b p) idx (2 : Fin 3) = min (idx (ix2 p 1)).toInt.toNat 26 := by
      unfold GatherDims.start
      rw [dif_pos (show (2 : Fin S16384x27x27.rank) ∈ gather_S16384x27x27_S378x2_S16384x378_0_12_n_n_12_1_1638411.startIndexMap by decide), siIdx_eq]
      rfl
    show gather_S16384x27x27_S378x2_S16384x378_0_12_n_n_12_1_1638411.start (ix2 b p) idx (2 : Fin 3) + gather_S16384x27x27_S378x2_S16384x378_0_12_n_n_12_1_1638411.offCoord (ix2 b p) (2 : Fin 3) = min (idx (ix2 p 1)).toInt.toNat 26
    rw [hs, ho, Nat.add_zero]

/-! ## The start indices at an index

Column 0 of the start indices is the first literal table and column 1 the second: each column is a broadcast of a
select on an all-false mask, which keeps its third operand, the table itself. -/

theorem startIdx_0 (p : Fin 378) : RefRun.startIdx (ix2 p 0) = lit0 p := by
  unfold RefRun.startIdx
  refine (concatenate_pair_apply_left (t := S378x2) (s₁ := S378x1) (s₂ := S378x1) (1 : Fin 2) _ _ _ (ix2 p (0 : Fin 2)) rfl (ix2 p (0 : Fin 1))
    (fun b => by match b with | ⟨0, _⟩ => rfl | ⟨1, _⟩ => rfl)).trans ?_
  refine (broadcastInDim_apply _ _ _ (ix2 p (0 : Fin 1)) (ix1 p) (fun a => by match a with | ⟨0, _⟩ => rfl)).trans ?_
  rw [select_apply]
  show Scalar.select 0#1 _ _ = _
  rw [select_zero]
  show lit0 (S378.rowMajor (ix1 p)) = lit0 p
  congr 1
  exact Fin.ext (Shape.rowMajor_val_one _)

theorem startIdx_1 (p : Fin 378) : RefRun.startIdx (ix2 p 1) = lit1 p := by
  unfold RefRun.startIdx
  refine (concatenate_pair_apply_right (t := S378x2) (s₁ := S378x1) (s₂ := S378x1) (1 : Fin 2) _ _ _ (ix2 p (1 : Fin 2)) rfl rfl (ix2 p (0 : Fin 1))
    (fun b hb => by match b, hb with | ⟨0, _⟩, _ => rfl | ⟨1, _⟩, hb => exact absurd rfl hb) rfl).trans ?_
  refine (broadcastInDim_apply _ _ _ (ix2 p (0 : Fin 1)) (ix1 p) (fun a => by match a with | ⟨0, _⟩ => rfl)).trans ?_
  rw [select_apply]
  show Scalar.select 0#1 _ _ = _
  rw [select_zero]
  show lit1 (S378.rowMajor (ix1 p)) = lit1 p
  congr 1
  exact Fin.ext (Shape.rowMajor_val_one _)

/-- The two literal tables are the row and the column of each position of the lower triangle's row-by-row walk: checked
    position by position. -/
theorem tables (p : Fin 378) :
    (lit0 p).toInt.toNat = Cert.Spec.triRowN p.val ∧ (lit1 p).toInt.toNat = Cert.Spec.triColN p.val := by
  revert p
  decide +kernel

/-! ## The feature vectors at an index -/

/-- Row n of batch b of the transposed concatenation: the dense row for n = 0, sparse row n - 1 otherwise. -/
theorem feats_apply (a0 : FVec Ideal S16384x128 .f32) (a1 : FVec Ideal S26x16384x128 .f32) (b : Fin 16384) (n : Fin 27)
    (d : Fin 128) : RefRun.feats a0 a1 (ix3 b n d) = Cert.Spec.featAt a0 a1 n b d := by
  unfold RefRun.feats
  refine (transpose_apply _ _ _ (ix3 b n d) (ix3 n b d)
    (fun c => by match c with | ⟨0, _⟩ => rfl | ⟨1, _⟩ => rfl | ⟨2, _⟩ => rfl)).trans ?_
  unfold Cert.Spec.featAt
  split
  · next h =>
    refine (concatenate_pair_apply_left (t := S27x16384x128) (s₁ := S1x16384x128) (s₂ := S26x16384x128) (0 : Fin 3) _ _ _ (ix3 n b d) rfl (ix3 (0 : Fin 1) b d)
      (fun c => by match c with | ⟨0, _⟩ => exact h.symm | ⟨1, _⟩ => rfl | ⟨2, _⟩ => rfl)).trans ?_
    exact broadcastInDim_apply _ _ _ (ix3 (0 : Fin 1) b d) (ix2 b d)
      (fun a => by match a with | ⟨0, _⟩ => rfl | ⟨1, _⟩ => rfl)
  · next h =>
    exact concatenate_pair_apply_right (t := S27x16384x128) (s₁ := S1x16384x128) (s₂ := S26x16384x128) (0 : Fin 3) _ _ _ (ix3 n b d) rfl rfl (ix3 (⟨n.val - 1, by omega⟩ : Fin 26) b d)
      (fun c hc => by match c, hc with | ⟨0, _⟩, hc => exact absurd rfl hc | ⟨1, _⟩, _ => rfl | ⟨2, _⟩, _ => rfl)
      (by show n.val - 1 + 1 = n.val; omega)

/-- Feature 0 is the dense row. -/
theorem featAt_zero (a0 : FVec Ideal S16384x128 .f32) (a1 : FVec Ideal S26x16384x128 .f32) (b : Fin 16384) (d : Fin 128) :
    Cert.Spec.featAt a0 a1 0 b d = a0 (ix2 b d) := by
  unfold Cert.Spec.featAt
  exact dif_pos rfl

/-! ## The composed term is the specification -/

theorem refTerm_apply (a0 : FVec Ideal S16384x128 .f32) (a1 : FVec Ideal S26x16384x128 .f32) (b : Fin 16384) (q : Fin 506) :
    RefRun.refTerm a0 a1 (ix2 b q) = Cert.Spec.G a0 a1 (ix2 b q) := by
  rw [Cert.Spec.G_ix2]
  unfold RefRun.refTerm Cert.Spec.rowOf
  split
  · next h =>
    refine (concatenate_pair_apply_left (t := S16384x506) (s₁ := S16384x128) (s₂ := S16384x378) (1 : Fin 2) _ _ _ (ix2 b q) rfl (ix2 b (⟨q.val, h⟩ : Fin 128))
      (fun c => by match c with | ⟨0, _⟩ => rfl | ⟨1, _⟩ => rfl)).trans ?_
    exact (featAt_zero a0 a1 b ⟨q.val, h⟩).symm
  · next h =>
    refine (concatenate_pair_apply_right (t := S16384x506) (s₁ := S16384x128) (s₂ := S16384x378) (1 : Fin 2) _ _ _ (ix2 b q) rfl rfl (ix2 b (⟨q.val - 128, by omega⟩ : Fin 378))
      (fun c hc => by match c, hc with | ⟨0, _⟩, _ => rfl | ⟨1, _⟩, hc => exact absurd rfl hc)
      (by show q.val - 128 + 128 = q.val; omega)).trans ?_
    rw [gather_apply]
    have ht := tables (⟨q.val - 128, by omega⟩ : Fin 378)
    have e0 : (⟨min (RefRun.startIdx (ix2 (⟨q.val - 128, by omega⟩ : Fin 378) 0)).toInt.toNat 26, by omega⟩ : Fin 27)
        = Cert.Spec.triRow ⟨q.val - 128, by omega⟩ := by
      refine Fin.ext ?_
      show min (RefRun.startIdx (ix2 (⟨q.val - 128, by omega⟩ : Fin 378) 0)).toInt.toNat 26 = min _ 26
      rw [startIdx_0, ht.1]
    have e1 : (⟨min (RefRun.startIdx (ix2 (⟨q.val - 128, by omega⟩ : Fin 378) 1)).toInt.toNat 26, by omega⟩ : Fin 27)
        = Cert.Spec.triCol ⟨q.val - 128, by omega⟩ := by
      refine Fin.ext ?_
      show min (RefRun.startIdx (ix2 (⟨q.val - 128, by omega⟩ : Fin 378) 1)).toInt.toNat 26 = min _ 26
      rw [startIdx_1, ht.2]
    rw [e0, e1, gram_apply]
    refine Finset.sum_congr rfl fun d _ => ?_
    rw [feats_apply, feats_apply]

theorem refTerm_eq (a0 : FVec Ideal S16384x128 .f32) (a1 : FVec Ideal S26x16384x128 .f32) :
    RefRun.refTerm a0 a1 = Cert.Spec.G a0 a1 := by
  funext i
  rw [eq_ix2 i]
  exact refTerm_apply a0 a1 (i 0) (i 1)

/-! ## The run -/

section Run
open Idealize.ShloMosaic.TcCoe Idealize.SL.Sem

/-- On the device, at the ideal values, from any memory with zero counters: every weakly fair execution of @main
    terminates with the result buffer at the specification's array of the two arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refTerm_eq _ _), (h c).2.1, (h c).2.2⟩) (RefRun.run (F := Ideal) m ρ)

end Run

end Cert.ReferenceIdeal.RefValue

end
-- ==== Proof.lean ====
/-
  The kernel computes, for each of 16384 batch rows, the dense feature row followed by the 378 dot products of the
  lower triangle (diagonal included) of the row's 27 feature vectors — the dense row and the 26 sparse rows —, each dot
  product a lane sum of an elementwise product, the columns laid side by side. The reference stacks the same 27 feature
  rows, takes all 27 × 27 dot products at once as a batched matrix product, and gathers the lower triangle's entries in
  the same row-by-row order. Over the extended reals both results are, entry by entry, the one function `Spec.G` of the
  two argument arrays (Proof/Spec.lean): a sum of 128 products on each side, the same products in the same order, so no
  algebraic law and no finiteness of the inputs is needed. The word-level kernel and its idealization are the same
  text (no rewrite was applied), so `preserves` has nothing to state.
-/
import proofs.«143111_j1082331758806_1_alg».proof.Defs
import proofs.«143111_j1082331758806_1_alg».proof.Proof.Gen.Kernel
import proofs.«143111_j1082331758806_1_alg».proof.Proof.PatchedKernelFrame
import proofs.«143111_j1082331758806_1_alg».proof.Proof.Gen.KernelIdeal
import proofs.«143111_j1082331758806_1_alg».proof.Proof.PatchedKernelIdealFrame
import proofs.«143111_j1082331758806_1_alg».proof.Proof.Gen.ReferenceIdeal
import proofs.«143111_j1082331758806_1_alg».proof.Proof.Gen.Pre_finite_inputs
import proofs.«143111_j1082331758806_1_alg».proof.Proof.KernelArray
import proofs.«143111_j1082331758806_1_alg».proof.Proof.RefValue

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories that agree on the arguments, the idealized kernel ends with its result array at `Spec.G` of the
    arguments, and so does the reference. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
